-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel

variable [Facts]

def fn {F : FTy → Type} [FloatOps F] (main_arg0 : FVec F S64x128 .f32) (main_arg1 : FVec F S64x128 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S64x128 : Shape := ⟨2, ![64, 128]⟩
abbrev S64x64 : Shape := ⟨2, ![64, 64]⟩
abbrev S8x128 : Shape := ⟨2, ![8, 128]⟩
abbrev S8x64 : Shape := ⟨2, ![8, 64]⟩
abbrev S8x1x128x1 : Shape := ⟨4, ![8, 1, 128, 1]⟩
abbrev S1x8x1x128 : Shape := ⟨4, ![1, 8, 1, 128]⟩
abbrev S8x8x128x128 : Shape := ⟨4, ![8, 8, 128, 128]⟩
abbrev S8x8x128 : Shape := ⟨3, ![8, 8, 128]⟩
abbrev S8x8 : Shape := ⟨2, ![8, 8]⟩

abbrev nBuf : Space → Nat
  | .hbm => 3
  | .vmem => 5
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x64, .f32⟩
  | .local _ .vmem, ⟨0, _⟩ => ⟨S8x128, .f32⟩
  | .local _ .vmem, ⟨1, _⟩ => ⟨S8x128, .f32⟩
  | .local _ .vmem, ⟨2, _⟩ => ⟨S64x128, .f32⟩
  | .local _ .vmem, ⟨3, _⟩ => ⟨S8x64, .f32⟩
  | .local _ .vmem, ⟨4, _⟩ => ⟨S8x64, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x128_S8x128_0_0 : ∀ a, (![0, 0] : Fin 2 → Nat) a + S8x128.size a ≤ S8x128.size a
  h_S8x128 : 0 < S8x128.numel
  inb_S64x128_S64x128_0_0 : ∀ a, (![0, 0] : Fin 2 → Nat) a + S64x128.size a ≤ S64x128.size a
  h_S64x128 : 0 < S64x128.numel
  slices_S64x128_o0_0_S8x128 : S64x128.Slices ![0, 0] S8x128
  shapeCasts_S8x128_S8x1x128x1 : S8x128.ShapeCasts S8x1x128x1
  shapeCasts_S8x128_S1x8x1x128 : S8x128.ShapeCasts S1x8x1x128
  broadcasts_S8x1x128x1_S8x8x128x128 : S8x1x128x1.Broadcasts S8x8x128x128
  broadcasts_S1x8x1x128_S8x8x128x128 : S1x8x1x128.Broadcasts S8x8x128x128
  reduces_S8x8x128x128_S8x8x128 : S8x8x128x128.Reduces [3] S8x8x128
  natLt_1_32 : 1 < 32
  reduces_S8x8x128_S8x8 : S8x8x128.Reduces [2] S8x8
  inb_S8x64_S8x8_0_0 : ∀ a, (![0, 0] : Fin 2 → Nat) a + S8x8.size a ≤ S8x64.size a
  h_S8x8 : 0 < S8x8.numel
  slices_S64x128_o8_0_S8x128 : S64x128.Slices ![8, 0] S8x128
  inb_S8x64_S8x8_0_8 : ∀ a, (![0, 8] : Fin 2 → Nat) a + S8x8.size a ≤ S8x64.size a
  slices_S64x128_o16_0_S8x128 : S64x128.Slices ![16, 0] S8x128
  inb_S8x64_S8x8_0_16 : ∀ a, (![0, 16] : Fin 2 → Nat) a + S8x8.size a ≤ S8x64.size a
  slices_S64x128_o24_0_S8x128 : S64x128.Slices ![24, 0] S8x128
  inb_S8x64_S8x8_0_24 : ∀ a, (![0, 24] : Fin 2 → Nat) a + S8x8.size a ≤ S8x64.size a
  slices_S64x128_o32_0_S8x128 : S64x128.Slices ![32, 0] S8x128
  inb_S8x64_S8x8_0_32 : ∀ a, (![0, 32] : Fin 2 → Nat) a + S8x8.size a ≤ S8x64.size a
  slices_S64x128_o40_0_S8x128 : S64x128.Slices ![40, 0] S8x128
  inb_S8x64_S8x8_0_40 : ∀ a, (![0, 40] : Fin 2 → Nat) a + S8x8.size a ≤ S8x64.size a
  slices_S64x128_o48_0_S8x128 : S64x128.Slices ![48, 0] S8x128
  inb_S8x64_S8x8_0_48 : ∀ a, (![0, 48] : Fin 2 → Nat) a + S8x8.size a ≤ S8x64.size a
  slices_S64x128_o56_0_S8x128 : S64x128.Slices ![56, 0] S8x128
  inb_S8x64_S8x8_0_56 : ∀ a, (![0, 56] : Fin 2 → Nat) a + S8x8.size a ≤ S8x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S64x128.size a
  hwx0_0 : ∀ i : grid0.Coords, EltTy.bits .f32 = 32 ∨ (Rect.block (s := S64x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S64x64.size a
  hwx0_2 : ∀ i : grid0.Coords, EltTy.bits .f32 = 32 ∨ (Rect.block (s := S64x64) S8x64.size (cc0_transform_2 i) (hinb0_2 i)).WholeWords (EltTy.packing .f32)

variable [Facts₀]

abbrev win0_0 : Pipeline.Window sig grid0 :=
  Pipeline.Window.ofSpec (Memref.whole main_arg1) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128 : Shape := ⟨2, ![64, 128]⟩
abbrev S64x1x128x1 : Shape := ⟨4, ![64, 1, 128, 1]⟩
abbrev S1x64x1x128 : Shape := ⟨4, ![1, 64, 1, 128]⟩
abbrev S64x64x128x128 : Shape := ⟨4, ![64, 64, 128, 128]⟩
abbrev S_ : Shape := ⟨0, ![]⟩
abbrev S64x64x128 : Shape := ⟨3, ![64, 64, 128]⟩
abbrev S64x64 : Shape := ⟨2, ![64, 64]⟩

abbrev nBuf : Space → Nat
  | .hbm => 16
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x1x128x1, .f32⟩
  | .hbm, ⟨3, _⟩ => ⟨S1x64x1x128, .f32⟩
  | .hbm, ⟨4, _⟩ => ⟨S64x64x128x128, .f32⟩
  | .hbm, ⟨5, _⟩ => ⟨S64x64x128x128, .f32⟩
  | .hbm, ⟨6, _⟩ => ⟨S64x64x128x128, .f32⟩
  | .hbm, ⟨7, _⟩ => ⟨S64x64x128x128, .f32⟩
  | .hbm, ⟨8, _⟩ => ⟨S_, .f32⟩
  | .hbm, ⟨9, _⟩ => ⟨S64x64x128, .f32⟩
  | .hbm, ⟨10, _⟩ => ⟨S_, .f32⟩
  | .hbm, ⟨11, _⟩ => ⟨S64x64x128, .f32⟩
  | .hbm, ⟨12, _⟩ => ⟨S64x64x128, .i1⟩
  | .hbm, ⟨13, _⟩ => ⟨S64x64x128, .f32⟩
  | .hbm, ⟨14, _⟩ => ⟨S_, .f32⟩
  | .hbm, ⟨15, _⟩ => ⟨S64x64, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S64x128_S64x1x128x1_0_2 : S64x128.BroadcastsInDim S64x1x128x1 (![0, 2] : Fin 2 → Fin S64x1x128x1.rank)
  bcast_S64x128_S1x64x1x128_1_3 : S64x128.BroadcastsInDim S1x64x1x128 (![1, 3] : Fin 2 → Fin S1x64x1x128.rank)
  bcast_S64x1x128x1_S64x64x128x128_0_1_2_3 : S64x1x128x1.BroadcastsInDim S64x64x128x128 (![0, 1, 2, 3] : Fin 4 → Fin S64x64x128x128.rank)
  bcast_S1x64x1x128_S64x64x128x128_0_1_2_3 : S1x64x1x128.BroadcastsInDim S64x64x128x128 (![0, 1, 2, 3] : Fin 4 → Fin S64x64x128x128.rank)
  reducesTo_S64x64x128x128_S64x64x128_d3 : S64x64x128x128.ReducesTo [3] S64x64x128
  h_S_ : 0 < S_.numel
  bcast_S_S64x64x128 : S_.BroadcastsInDim S64x64x128 (![] : Fin 0 → Fin S64x64x128.rank)
  reducesTo_S64x64x128_S64x64_d2 : S64x64x128.ReducesTo [2] S64x64

variable [Facts₀]

class Facts : Prop extends Facts₀ where

variable [Facts]
-- ==== Proof.PairCount.lean ====
/-
  The count for one pair of rows, and the kernel's chunk read at an index.

  For rows `z` and `a` of 128 extended reals, `rowCount z a` is the number of entries `z l` whose distance to the nearest
  entry of `a`, `min_k |z l - a k|` (the minimum started from +∞), is positive: the sum over `l` of the indicator
  `[min_k |z l - a k| > 0]` read as 0 or 1. Both programs compute this number for every pair of a row of the second
  argument and a row of the first; the kernel does so eight rows against eight rows at a time.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.KernelVsHost

noncomputable section

namespace Cert.PairCount

open Idealize.ShloMosaic Idealize.ShloMosaic.ValueIdx

abbrev T8x128 : Shape := ⟨2, ![8, 128]⟩
abbrev T8x1x128x1 : Shape := ⟨4, ![8, 1, 128, 1]⟩
abbrev T1x8x1x128 : Shape := ⟨4, ![1, 8, 1, 128]⟩
abbrev T8x8x128x128 : Shape := ⟨4, ![8, 8, 128, 128]⟩
abbrev T8x8x128 : Shape := ⟨3, ![8, 8, 128]⟩
abbrev T8x8 : Shape := ⟨2, ![8, 8]⟩
abbrev T64x128 : Shape := ⟨2, ![64, 128]⟩
abbrev T64x64 : Shape := ⟨2, ![64, 64]⟩
abbrev T8x64 : Shape := ⟨2, ![8, 64]⟩

/-- How many entries of the row `z` lie at a positive distance from the nearest entry of the row `a`. -/
def rowCount (z a : Fin 128 → Ideal .f32) : Ideal .f32 :=
  ∑ l : Fin 128, FloatOps.uitofp (F := Ideal) .f32
    (FloatOps.cmpf .ogt
      ((Finset.univ : Finset (Fin 128)).fold FloatOps.minimumf (FloatOps.ofBits (F := Ideal) .f32 0x7F800000#32)
        (fun k => FloatOps.absf (FloatOps.subf (z l) (a k))))
      (FloatOps.ofBits (F := Ideal) .f32 0x00000000#32))

/-- THE RESULT, as one function of the two arguments: entry (i, j) is the count for row `i` of `zh` and row `j` of `it`. -/
def pairCounts (it zh : T64x128.Idx → Ideal .f32) : T64x64.Idx → Ideal .f32 :=
  fun ij => rowCount (fun l => zh (ix2 (⟨(ij 0).val, (ij 0).isLt⟩ : Fin 64) l))
    (fun k => it (ix2 (⟨(ij 1).val, (ij 1).isLt⟩ : Fin 64) k))

/-- ONE GRID POINT's block of it: entry (p, j) is the count for row `p` of the eight rows `x0` and row `j` of `it`. -/
def blockCounts (x0 : T8x128.Idx → Ideal .f32) (it : T64x128.Idx → Ideal .f32) : T8x64.Idx → Ideal .f32 :=
  fun y => rowCount (fun l => x0 (ix2 (⟨(y 0).val, (y 0).isLt⟩ : Fin 8) l))
    (fun k => it (ix2 (⟨(y 1).val, (y 1).isLt⟩ : Fin 64) k))

/-- A rank-3 index with a coordinate put back on a fourth, last axis. -/
theorem lift_last4 {n0 n1 n2 n3 : Nat} (h : (⟨4, ![n0, n1, n2, n3]⟩ : Shape).Reduces [3] (⟨3, ![n0, n1, n2]⟩ : Shape))
    (p : Fin n0) (q : Fin n1) (l : Fin n2) (k : Fin ((⟨4, ![n0, n1, n2, n3]⟩ : Shape).size 3)) :
    h.lift (ix3 p q l) k = ix4 p q l (⟨k.val, k.isLt⟩ : Fin n3) := by
  funext c; apply Fin.ext
  fin_cases c <;> rfl

/-- A rank-2 index with a coordinate put back on a third, last axis. -/
theorem lift_last3 {n0 n1 n2 : Nat} (h : (⟨3, ![n0, n1, n2]⟩ : Shape).Reduces [2] (⟨2, ![n0, n1]⟩ : Shape))
    (p : Fin n0) (q : Fin n1) (l : Fin ((⟨3, ![n0, n1, n2]⟩ : Shape).size 2)) :
    h.lift (ix2 p q) l = ix3 p q (⟨l.val, l.isLt⟩ : Fin n2) := by
  funext c; apply Fin.ext
  fin_cases c <;> rfl

/-- A float minimum over ONE axis, read at the ideal values: the fold of the minimum from the accumulator's value over that
    axis's coordinates, in any order (the minimum commutes and associates). -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold FloatOps.minimumf (FloatOps.ofBits φ acc) (src ∘ h.lift j) := by
  rw [multiReduction_minimumf_eq_fold]; exact h.fold_filter_drop_single _ _ src j

/-- The distance table of eight rows `v0` against eight rows `v2`, read at (p, q, l, k): `|v0 p l - v2 q k|`. -/
theorem dist_apply (v0 v2 : FVec Ideal T8x128 .f32)
    (hc0 : T8x128.ShapeCasts T8x1x128x1) (hc2 : T8x128.ShapeCasts T1x8x1x128)
    (hb0 : T8x1x128x1.Broadcasts T8x8x128x128) (hb2 : T1x8x1x128.Broadcasts T8x8x128x128)
    (p q : Fin 8) (l k : Fin 128) :
    absf (subf (broadcastTo T8x8x128x128 (shapeCast T8x1x128x1 v0 hc0) hb0)
               (broadcastTo T8x8x128x128 (shapeCast T1x8x1x128 v2 hc2) hb2)) (ix4 p q l k)
      = FloatOps.absf (FloatOps.subf (v0 (ix2 p l)) (v2 (ix2 q k))) := by
  show FloatOps.absf (FloatOps.subf
      (broadcastTo T8x8x128x128 (shapeCast T8x1x128x1 v0 hc0) hb0 (ix4 p q l k))
      (broadcastTo T8x8x128x128 (shapeCast T1x8x1x128 v2 hc2) hb2 (ix4 p q l k))) = _
  rw [broadcastTo_apply _ hb0 (ix4 p q l k) (ix4 p (0 : Fin 1) l (0 : Fin 1)) (fun a => by fin_cases a <;> rfl),
    broadcastTo_apply _ hb2 (ix4 p q l k) (ix4 (0 : Fin 1) q (0 : Fin 1) k) (fun a => by fin_cases a <;> rfl),
    shapeCast_apply v0 hc0 (ix4 p (0 : Fin 1) l (0 : Fin 1)) (ix2 p l) (by
      rw [Shape.rowMajor_val_two, Shape.rowMajor_val_four]; show _ = _; simp),
    shapeCast_apply v2 hc2 (ix4 (0 : Fin 1) q (0 : Fin 1) k) (ix2 q k) (by
      rw [Shape.rowMajor_val_two, Shape.rowMajor_val_four]; show _ = _; simp)]

/-- The minimum over the last axis of ANY table `D`, read at (p, q, l): the fold of the minimum from +∞ over the 128
    coordinates `k` of `D (p, q, l, k)`. -/
theorem minOver_last (D : FVec Ideal T8x8x128x128 .f32) (hr3 : T8x8x128x128.Reduces [3] T8x8x128) (hφ : FKind.Formats .f32)
    (hinf : (0x7F800000#32 : BitVec 32) = FKind.minimumf.neutral .f32 hφ) (p q : Fin 8) (l : Fin 128) :
    multiReduction .minimumf [3] T8x8x128 D 0x7F800000#32 hr3 hφ hinf (ix3 p q l)
      = (Finset.univ : Finset (Fin 128)).fold FloatOps.minimumf (FloatOps.ofBits (F := Ideal) .f32 0x7F800000#32)
          (fun k => D (ix4 p q l k)) := by
  refine (multiReduction_minimumf_single D 0x7F800000#32 hr3 hφ hinf (ix3 p q l)).trans ?_
  refine congrArg (fun f => Finset.fold FloatOps.minimumf (FloatOps.ofBits (F := Ideal) .f32 0x7F800000#32) f
    (Finset.univ : Finset (Fin 128))) (funext fun k => ?_)
  exact congrArg D (lift_last4 hr3 p q l k)

/-- For ANY table `M` over (p, q, l): the indicator `[M > 0]`, widened to a word and converted signed, summed over the last
    axis from the neutral zero and read at (p, q), is the plain sum over `l` of the indicator `[M (p, q, l) > 0]` converted
    unsigned. -/
theorem countOver_last (M : FVec Ideal T8x8x128 .f32) (hr2 : T8x8x128.Reduces [2] T8x8) (hlt : 1 < 32) (hφ : FKind.Formats .f32)
    (hzero : (0x00000000#32 : BitVec 32) = FKind.add.neutral .f32 hφ) (p q : Fin 8) :
    multiReduction .add [2] T8x8
        (sitofp .f32 (extui 32 (cmpf .ogt M (broadcast T8x8x128 (Scalar.ofBits (F := Ideal) .f32 0x00000000#32))) hlt))
        0x00000000#32 hr2 hφ hzero (ix2 p q)
      = ∑ l : Fin 128, FloatOps.uitofp (F := Ideal) .f32
          (FloatOps.cmpf .ogt (M (ix3 p q l)) (FloatOps.ofBits (F := Ideal) .f32 0x00000000#32)) := by
  rw [sitofp_extui_eq_uitofp]
  refine (Ideal.multiReduction_add_single
    (uitofp .f32 (cmpf .ogt M (broadcast T8x8x128 (Scalar.ofBits (F := Ideal) .f32 0x00000000#32))))
    0x00000000#32 hr2 hφ hzero (ix2 p q)).trans ?_
  refine Finset.sum_congr rfl fun l _ => ?_
  exact congrArg (fun i => FloatOps.uitofp (F := Ideal) .f32
    (FloatOps.cmpf .ogt (M i) (FloatOps.ofBits (F := Ideal) .f32 0x00000000#32))) (lift_last3 hr2 p q l)

/-- ONE CHUNK of the kernel — eight rows `v0` against eight rows `v2` — read at (p, q) is the count for row `p` of
    `v0` and row `q` of `v2`. -/
theorem chunk_apply (v0 v2 : FVec Ideal T8x128 .f32)
    (hc0 : T8x128.ShapeCasts T8x1x128x1) (hc2 : T8x128.ShapeCasts T1x8x1x128)
    (hb0 : T8x1x128x1.Broadcasts T8x8x128x128) (hb2 : T1x8x1x128.Broadcasts T8x8x128x128)
    (hr3 : T8x8x128x128.Reduces [3] T8x8x128) (hr2 : T8x8x128.Reduces [2] T8x8) (hlt : 1 < 32) (hφ : FKind.Formats .f32)
    (hinf : (0x7F800000#32 : BitVec 32) = FKind.minimumf.neutral .f32 hφ)
    (hzero : (0x00000000#32 : BitVec 32) = FKind.add.neutral .f32 hφ) (p q : Fin 8) :
    multiReduction .add [2] T8x8
        (sitofp .f32 (extui 32 (cmpf .ogt
          (multiReduction .minimumf [3] T8x8x128
            (absf (subf (broadcastTo T8x8x128x128 (shapeCast T8x1x128x1 v0 hc0) hb0)
                        (broadcastTo T8x8x128x128 (shapeCast T1x8x1x128 v2 hc2) hb2)))
            0x7F800000#32 hr3 hφ hinf)
          (broadcast T8x8x128 (Scalar.ofBits (F := Ideal) .f32 0x00000000#32))) hlt))
        0x00000000#32 hr2 hφ hzero (ix2 p q)
      = rowCount (fun l => v0 (ix2 p l)) (fun k => v2 (ix2 q k)) := by
  refine (countOver_last _ hr2 hlt hφ hzero p q).trans ?_
  unfold rowCount
  refine Finset.sum_congr rfl fun l _ => ?_
  refine congrArg (fun x => FloatOps.uitofp (F := Ideal) .f32 (FloatOps.cmpf .ogt x (FloatOps.ofBits (F := Ideal) .f32 0x00000000#32))) ?_
  refine (minOver_last _ hr3 hφ hinf p q l).trans ?_
  exact congrArg (fun f => Finset.fold FloatOps.minimumf (FloatOps.ofBits (F := Ideal) .f32 0x7F800000#32) f
    (Finset.univ : Finset (Fin 128))) (funext fun k => dist_apply v0 v2 hc0 hc2 hb0 hb2 p q l k)

/-- THE CHUNK AT COLUMN OFFSET `o`: the chunk of the eight rows `x0` against rows `o … o + 7` of `it` (a slice of it), read
    at a local index `x`, is the block's entry under the 8 × 8 rectangle at columns `o … o + 7`: row `o + q` of `it` is
    row `q` of the slice. -/
theorem piece_apply (o : Nat) (hs : T64x128.Slices ![o, 0] T8x128)
    (inb : ∀ a, (![0, o] : Fin 2 → Nat) a + T8x8.size a ≤ T8x64.size a)
    (x0 : FVec Ideal T8x128 .f32) (it : FVec Ideal T64x128 .f32)
    (hc0 : T8x128.ShapeCasts T8x1x128x1) (hc2 : T8x128.ShapeCasts T1x8x1x128)
    (hb0 : T8x1x128x1.Broadcasts T8x8x128x128) (hb2 : T1x8x1x128.Broadcasts T8x8x128x128)
    (hr3 : T8x8x128x128.Reduces [3] T8x8x128) (hr2 : T8x8x128.Reduces [2] T8x8) (hlt : 1 < 32) (hφ : FKind.Formats .f32)
    (hinf : (0x7F800000#32 : BitVec 32) = FKind.minimumf.neutral .f32 hφ)
    (hzero : (0x00000000#32 : BitVec 32) = FKind.add.neutral .f32 hφ) (x : T8x8.Idx) :
    multiReduction .add [2] T8x8
        (sitofp .f32 (extui 32 (cmpf .ogt
          (multiReduction .minimumf [3] T8x8x128
            (absf (subf (broadcastTo T8x8x128x128 (shapeCast T8x1x128x1 x0 hc0) hb0)
                        (broadcastTo T8x8x128x128 (shapeCast T1x8x1x128 (extractStridedSlice T8x128 ![o, 0] it hs) hc2) hb2)))
            0x7F800000#32 hr3 hφ hinf)
          (broadcast T8x8x128 (Scalar.ofBits (F := Ideal) .f32 0x00000000#32))) hlt))
        0x00000000#32 hr2 hφ hzero x
      = blockCounts x0 it ((Rect.unit (s := T8x64) ![0, o] T8x8.size inb).emb x) := by
  obtain ⟨p, q, rfl⟩ : ∃ (p q : Fin 8), x = ix2 p q := ⟨x 0, x 1, eq_ix2 x⟩
  refine (chunk_apply x0 _ hc0 hc2 hb0 hb2 hr3 hr2 hlt hφ hinf hzero p q).trans ?_
  unfold blockCounts
  refine congrArg₂ rowCount (funext fun l => congrArg x0 ?_) (funext fun k => ?_)
  · funext a; apply Fin.ext
    match a with
    | ⟨0, _⟩ => show p.val = 0 + 1 * p.val; omega
    | ⟨1, _⟩ => rfl
  · refine extractStridedSlice_apply ![o, 0] it hs (ix2 q k) _ fun a => ?_
    match a with
    | ⟨0, _⟩ => show o + 1 * q.val = o + q.val; omega
    | ⟨1, _⟩ => show k.val = 0 + k.val; omega

end Cert.PairCount

end
-- ==== Proof.KernelBlock.lean ====
/-
  What one grid point leaves in the output's block.

  The body loads the point's eight rows of the second argument (`x0`) and the whole first argument (`it`), and for each of
  the eight chunks of eight rows of `it` stores an 8 × 8 tile of counts at the chunk's columns. Every tile is the same
  function of the block's index — entry (p, j) is the count for row `p` of `x0` and row `j` of `it` — and the eight
  tiles cover the block, so the block ends holding that function.
-/
import proofs.«128038_j54185307406552_1_alg».proof.Proof.Gen.KernelIdeal.Frame
import proofs.«128038_j54185307406552_1_alg».proof.Proof.PairCount
import Idealize.ShloMosaic.Lib.Pipeline.Value

noncomputable section

namespace Cert.KernelIdeal.Hand

open Cert.KernelIdeal Cert.KernelIdeal.Gen Idealize.ShloMosaic Idealize.ShloMosaic.ValueIdx Cert.PairCount

theorem hz : (![0, 0] : Fin 2 → Nat) = fun _ => 0 := funext fun a => by fin_cases a <;> rfl

/-- The eight stored tiles, each at its own columns, are the block of counts read under the tile's rectangle. -/
theorem tiles_eq (x0 : Vec Ideal S8x128 .f32) (it : Vec Ideal S64x128 .f32) :
    (∀ x, k0_pay4 x0 it x = blockCounts x0 it (r0_2.emb x))
    ∧ (∀ x, k0_pay5 x0 it x = blockCounts x0 it (r0_3.emb x))
    ∧ (∀ x, k0_pay7 (F := Ideal) (k0_pay6 x0 it) x = blockCounts x0 it (r0_4.emb x))
    ∧ (∀ x, k0_pay8 x0 it x = blockCounts x0 it (r0_5.emb x))
    ∧ (∀ x, k0_pay9 x0 it x = blockCounts x0 it (r0_6.emb x))
    ∧ (∀ x, k0_pay1 (F := Ideal) (k0_pay10 x0 it) x = blockCounts x0 it (r0_7.emb x))
    ∧ (∀ x, k0_pay2 x0 it x = blockCounts x0 it (r0_8.emb x))
    ∧ (∀ x, k0_pay3 x0 it x = blockCounts x0 it (r0_9.emb x)) :=
  ⟨fun x => piece_apply 0 slices_S64x128_o0_0_S8x128 inb_S8x64_S8x8_0_0 x0 it shapeCasts_S8x128_S8x1x128x1 shapeCasts_S8x128_S1x8x1x128
      broadcasts_S8x1x128x1_S8x8x128x128 broadcasts_S1x8x1x128_S8x8x128x128 reduces_S8x8x128x128_S8x8x128 reduces_S8x8x128_S8x8 natLt_1_32 (.inl rfl) rfl rfl x,
   fun x => piece_apply 8 slices_S64x128_o8_0_S8x128 inb_S8x64_S8x8_0_8 x0 it shapeCasts_S8x128_S8x1x128x1 shapeCasts_S8x128_S1x8x1x128
      broadcasts_S8x1x128x1_S8x8x128x128 broadcasts_S1x8x1x128_S8x8x128x128 reduces_S8x8x128x128_S8x8x128 reduces_S8x8x128_S8x8 natLt_1_32 (.inl rfl) rfl rfl x,
   fun x => piece_apply 16 slices_S64x128_o16_0_S8x128 inb_S8x64_S8x8_0_16 x0 it shapeCasts_S8x128_S8x1x128x1 shapeCasts_S8x128_S1x8x1x128
      broadcasts_S8x1x128x1_S8x8x128x128 broadcasts_S1x8x1x128_S8x8x128x128 reduces_S8x8x128x128_S8x8x128 reduces_S8x8x128_S8x8 natLt_1_32 (.inl rfl) rfl rfl x,
   fun x => piece_apply 24 slices_S64x128_o24_0_S8x128 inb_S8x64_S8x8_0_24 x0 it shapeCasts_S8x128_S8x1x128x1 shapeCasts_S8x128_S1x8x1x128
      broadcasts_S8x1x128x1_S8x8x128x128 broadcasts_S1x8x1x128_S8x8x128x128 reduces_S8x8x128x128_S8x8x128 reduces_S8x8x128_S8x8 natLt_1_32 (.inl rfl) rfl rfl x,
   fun x => piece_apply 32 slices_S64x128_o32_0_S8x128 inb_S8x64_S8x8_0_32 x0 it shapeCasts_S8x128_S8x1x128x1 shapeCasts_S8x128_S1x8x1x128
      broadcasts_S8x1x128x1_S8x8x128x128 broadcasts_S1x8x1x128_S8x8x128x128 reduces_S8x8x128x128_S8x8x128 reduces_S8x8x128_S8x8 natLt_1_32 (.inl rfl) rfl rfl x,
   fun x => piece_apply 40 slices_S64x128_o40_0_S8x128 inb_S8x64_S8x8_0_40 x0 it shapeCasts_S8x128_S8x1x128x1 shapeCasts_S8x128_S1x8x1x128
      broadcasts_S8x1x128x1_S8x8x128x128 broadcasts_S1x8x1x128_S8x8x128x128 reduces_S8x8x128x128_S8x8x128 reduces_S8x8x128_S8x8 natLt_1_32 (.inl rfl) rfl rfl x,
   fun x => piece_apply 48 slices_S64x128_o48_0_S8x128 inb_S8x64_S8x8_0_48 x0 it shapeCasts_S8x128_S8x1x128x1 shapeCasts_S8x128_S1x8x1x128
      broadcasts_S8x1x128x1_S8x8x128x128 broadcasts_S1x8x1x128_S8x8x128x128 reduces_S8x8x128x128_S8x8x128 reduces_S8x8x128_S8x8 natLt_1_32 (.inl rfl) rfl rfl x,
   fun x => piece_apply 56 slices_S64x128_o56_0_S8x128 inb_S8x64_S8x8_0_56 x0 it shapeCasts_S8x128_S8x1x128x1 shapeCasts_S8x128_S1x8x1x128
      broadcasts_S8x1x128x1_S8x8x128x128 broadcasts_S1x8x1x128_S8x8x128x128 reduces_S8x8x128x128_S8x8x128 reduces_S8x8x128_S8x8 natLt_1_32 (.inl rfl) rfl rfl x⟩

/-- WHAT THE BODY LEAVES in the output's block, from the point's eight rows `x0` and the whole first argument `it`:
    the block of counts (every tile agrees with it, and the tiles cover the block). -/
theorem out_eq (x0 : Vec Ideal S8x128 .f32) (it : Vec Ideal S64x128 .f32) : out0_2 x0 it = blockCounts x0 it := by
  funext y
  unfold out0_2
  simp only [View.ld_unit_zero (S := S8x128) hz, View.ld_unit_zero (S := S64x128) hz]
  obtain ⟨h4, h5, h7, h8, h9, h1, h2, h3⟩ := tiles_eq x0 it
  refine View.canon_apply_of_pieces (Val := Elt Ideal) (blockCounts x0 it) _ ?_ y (cover0_2 _ _ _ _ _ _ _ _ y)
  intro pc hpc
  simp only [List.mem_cons, List.not_mem_nil, or_false] at hpc
  rcases hpc with rfl | rfl | rfl | rfl | rfl | rfl | rfl | rfl
  · exact h3
  · exact h2
  · exact h1
  · exact h9
  · exact h8
  · exact h7
  · exact h5
  · exact h4

end Cert.KernelIdeal.Hand

end
-- ==== Proof.KernelValue.lean ====
/-
  The kernel's result array is the table of counts.

  Grid point `t` stages rows `8t … 8t + 7` of the second argument and the whole first argument, and writes its block of
  counts back to rows `8t … 8t + 7` of the result, all 64 columns. The block's entry (p, j) is the count for rows
  `8t + p` and `j`, which is the table's entry there; the eight blocks cover the result, so it ends holding the table.
-/
import proofs.«128038_j54185307406552_1_alg».proof.Proof.Gen.KernelIdeal.Value
import proofs.«128038_j54185307406552_1_alg».proof.Proof.KernelBlock
import Idealize.ShloMosaic.Lib.Pipeline.Value

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx Cert.PairCount
open Idealize.ShloMosaic.Pipeline (Dat)

variable (m : (ℓ : Loc nD τ sig) → Buf (Elt Ideal) ℓ) (ρ : Dev nD → PrngReg)

/-- The printed index maps over the grid: the second argument's window and the output's move down the rows together, one
    block per point; the first argument's window stays on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of counts whose eight rows are rows `r0 … r0 + 7` of `zh`, over the whole `it`, read at `y`, is the table's
    entry at row `r0 + y 0`, column `y 1`. -/
theorem block_is_table (x0 : Vec Ideal S8x128 .f32) (itb : Vec Ideal S64x128 .f32) (it zh : S64x128.Idx → Elt Ideal .f32)
    (y : S8x64.Idx) (i : S64x64.Idx) (r0 : Nat)
    (h0 : ∀ (p : Fin 8) (l : Fin 128) (r : Fin 64), r.val = r0 + p.val → x0 (ix2 p l) = zh (ix2 r l))
    (h1 : ∀ (j : Fin 64) (k : Fin 128), itb (ix2 j k) = it (ix2 j k))
    (hi0 : (i 0).val = r0 + (y 0).val) (hi1 : (i 1).val = (y 1).val) :
    blockCounts x0 itb y = pairCounts it zh i := by
  unfold blockCounts pairCounts
  refine congrArg₂ rowCount (funext fun l => h0 ⟨(y 0).val, (y 0).isLt⟩ l ⟨(i 0).val, (i 0).isLt⟩ hi0) (funext fun k => ?_)
  refine (h1 ⟨(y 1).val, (y 1).isLt⟩ k).trans (congrArg it ?_)
  funext a; apply Fin.ext
  match a with
  | ⟨0, _⟩ => exact hi1.symm
  | ⟨1, _⟩ => rfl

/-- The second argument's block at point `t` is its rows `8t … 8t + 7`. -/
theorem zh_block_apply (c : Dev nD) (t : Fin cfg0.N) (p : Fin 8) (l : Fin 128) (r : Fin 64) (hr : r.val = t.val * 8 + p.val) :
    (iblk m c 0 t : Vec Ideal S8x128 .f32) (ix2 p l) = (V m c main_arg1 : S64x128.Idx → Elt Ideal .f32) (ix2 r l) := by
  obtain ⟨e0, e1, -, -, -, -⟩ := idx_facts t
  unfold iblk
  rw [View.read_apply]
  refine congrArg (V m c main_arg1 : S64x128.Idx → Elt Ideal .f32) ?_
  funext a; apply Fin.ext
  match a with
  | ⟨0, _⟩ => show win0_0.index t (0 : Fin 2) * 8 + 1 * p.val = r.val; rw [e0, hr]; omega
  | ⟨1, _⟩ => show win0_0.index t (1 : Fin 2) * 128 + 1 * l.val = l.val; rw [e1]; omega

/-- The first argument's block at every point is the whole array. -/
theorem it_block_apply (c : Dev nD) (t : Fin cfg0.N) (j : Fin 64) (k : Fin 128) :
    (iblk m c 1 t : Vec Ideal S64x128 .f32) (ix2 j k) = (V m c main_arg0 : S64x128.Idx → Elt Ideal .f32) (ix2 j k) := by
  obtain ⟨-, -, e0, e1, -, -⟩ := idx_facts t
  unfold iblk
  rw [View.read_apply]
  refine congrArg (V m c main_arg0 : S64x128.Idx → Elt Ideal .f32) ?_
  funext a; apply Fin.ext
  match a with
  | ⟨0, _⟩ => show win0_1.index t (0 : Fin 2) * 64 + 1 * j.val = j.val; rw [e0]; omega
  | ⟨1, _⟩ => show win0_1.index t (1 : Fin 2) * 128 + 1 * k.val = k.val; rw [e1]; omega

/-- The table of counts of the argument arrays as launched, typed as the result array's contents. -/
abbrev table (c : Dev nD) : Buf (Elt Ideal) ((c : Thread nD τ).loc main_v0) :=
  pairCounts (m ((c : Thread nD τ).loc main_arg0)) (m ((c : Thread nD τ).loc main_arg1))

/-- WHAT POINT `t` WRITES BACK is block `t` of the table. -/
theorem flushed_eq (c : Dev nD) (t : Fin cfg0.N) :
    (dats m 0 c).flushed 2 t = ((cfg0.win 2).blk t).view.read (Elt Ideal) (table m c) := by
  refine (flushed2 m c t).trans ?_
  refine (congrArg ((cfg0.win 2).cut (grid0.coords t)) (out_eq (iblk m c 0 t) (iblk m c 1 t))).trans ?_
  obtain ⟨-, -, -, -, e0, e1⟩ := idx_facts t
  funext y
  show blockCounts (iblk m c 0 t) (iblk m c 1 t) y = table m c (((cfg0.win 2).blk t).view.emb y)
  refine block_is_table (iblk m c 0 t) (iblk m c 1 t) _ _ y _ (t.val * 8)
    (fun p l r hr => zh_block_apply m c t p l r hr) (fun j k => it_block_apply m c t j k) ?_ ?_
  · show win0_2.index t (0 : Fin 2) * 8 + 1 * (y 0).val = t.val * 8 + (y 0).val; rw [e0]; omega
  · show win0_2.index t (1 : Fin 2) * 64 + 1 * (y 1).val = (y 1).val; rw [e1]; omega

/-- An index of the result is in point `t`'s block iff each coordinate is in the block's range on its axis. -/
theorem mem_blk (t : Fin cfg0.N) (i : S64x64.Idx) :
    i ∈ ((cfg0.win 2).blk t).view.set ↔ ∀ a : Fin 2, win0_2.index t a * S8x64.size a ≤ (i a).val ∧ (i a).val < win0_2.index t a * S8x64.size a + S8x64.size a := by
  show i ∈ ((View.whole main_v0).slice (win0_2.rect t)).set ↔ _
  rw [View.set_slice_whole, Rect.mem_set_unit]
  exact Iff.rfl

/-- Every index of the result is in some point's block: row `r` is in the block of point `r / 8`. -/
theorem cover (i : S64x64.Idx) : ∃ t : Fin cfg0.N, (cfg0.win 2).flush t = true ∧ i ∈ ((cfg0.win 2).blk t).view.set := by
  have hi0 : (i 0).val < 64 := (i 0).isLt
  have hi1 : (i 1).val < 64 := (i 1).isLt
  have hN : cfg0.N = 8 := N_0
  have ht : (i 0).val / 8 < cfg0.N := by rw [hN]; omega
  obtain ⟨-, -, -, -, e0, e1⟩ := idx_facts ⟨(i 0).val / 8, ht⟩
  refine ⟨⟨(i 0).val / 8, ht⟩, flush0_2 _, ?_⟩
  rw [mem_blk]
  intro a
  match a with
  | ⟨0, _⟩ =>
    show win0_2.index ⟨(i 0).val / 8, ht⟩ (0 : Fin 2) * 8 ≤ (i 0).val ∧ (i 0).val < win0_2.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_2.index ⟨(i 0).val / 8, ht⟩ (1 : Fin 2) * 64 ≤ (i 1).val ∧ (i 1).val < win0_2.index ⟨(i 0).val / 8, ht⟩ (1 : Fin 2) * 64 + 64
    rw [e1]; omega

/-- THE RESULT ARRAY after the run is the table. -/
theorem final (c : Dev nD) : (dats m 0 c).arrAt 2 cfg0.N = table m c :=
  (dats m 0 c).arrAt_eq_of_cover 2 (table m c) (fun t _ => flushed_eq m c t) cover

/-- The run, read: the result array at the table of counts of the arguments, the arguments unchanged. -/
theorem run : θ_run defs (onTc (τ := τ) (main (F := Ideal))) ⟨m, fun _ => 0, ρ⟩ fun r => ∀ c : Dev nD,
      r.2.mem ((c : Thread nD τ).loc main_v0) = table m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.RefCount.lean ====
/-
  The reference's result is the table of counts.

  The reference lays the second argument along axes 0 and 2 and the first along axes 1 and 3 of a [64, 64, 128, 128]
  table of distances `|zh i l - it j k|`, takes the minimum over `k` from +∞, compares with zero, converts the
  bit and sums over `l` from zero: entry (i, j) is the count for row `i` of the second argument and row `j` of the first.
-/
import proofs.«128038_j54185307406552_1_alg».proof.Proof.Gen.ReferenceIdeal.Read
import proofs.«128038_j54185307406552_1_alg».proof.Proof.PairCount
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.PairCount

/-- The distance table read at (i, j, l, k): `|x1 i l - x0 j k|` (the two broadcasts each keep two of the four
    coordinates; the host's absolute value is the kernel's). -/
theorem refDist_apply (x0 x1 : (⟨S64x128, .f32⟩ : BufTy).Contents (Elt Ideal)) (i j : Fin 64) (l k : Fin 128) :
    val_main_v5 (F := Ideal) x0 x1 (ix4 i j l k) = FloatOps.absf (F := Ideal) (φ := .f32) (FloatOps.subf (F := Ideal) (φ := .f32) (x1 (ix2 i l)) (x0 (ix2 j k))) := by
  have e1 : idx_main_v0 (idx_main_v2 (ix4 i j l k)) = ix2 i l :=
    funext fun a => Fin.ext (by match a with | ⟨0, _⟩ => rfl | ⟨1, _⟩ => rfl)
  have e0 : idx_main_v1 (idx_main_v3 (ix4 i j l k)) = ix2 j k :=
    funext fun a => Fin.ext (by match a with | ⟨0, _⟩ => rfl | ⟨1, _⟩ => rfl)
  rw [val_main_v5_apply, val_main_v4_apply, val_main_v2_apply, val_main_v0_apply, val_main_v3_apply, val_main_v1_apply, e1, e0]
  rfl

/-- The host's minimum over the last axis of ANY table `D`, read at (i, j, l): the fold of the minimum from the
    initial value over the 128 coordinates `k` of `D (i, j, l, k)`, in any order. -/
theorem hostMinOver_last (D : S64x64x128x128.Idx → Ideal .f32) (init : S_.Idx → Ideal .f32)
    (h' : S64x64x128x128.ReducesTo [3] S64x64x128) (hu : 0 < S_.numel) (i j : Fin 64) (l : Fin 128) :
    Host.reduce (FloatOps.minimumf (F := Ideal) (φ := .f32)) D init h' hu (ix3 i j l)
      = (Finset.univ : Finset (Fin 128)).fold (FloatOps.minimumf (F := Ideal) (φ := .f32)) (init (Shape.Idx.first hu))
          (fun k => D (ix4 i j l k)) := by
  have hr : S64x64x128x128.Reduces [3] S64x64x128 := by decide
  refine (Host.reduce_eq_fold_single (FloatOps.minimumf (F := Ideal) (φ := .f32)) D init h' hr hu (ix3 i j l)).trans ?_
  refine congrArg (fun f => Finset.fold (FloatOps.minimumf (F := Ideal) (φ := .f32)) (init (Shape.Idx.first hu)) f
    (Finset.univ : Finset (Fin 128))) (funext fun k => ?_)
  exact congrArg D (lift_last4 hr i j l k)

/-- The minimum over the last axis read at (i, j, l): the fold of the minimum from +∞ over `k` of the distance. -/
theorem refMin_apply (x0 x1 : (⟨S64x128, .f32⟩ : BufTy).Contents (Elt Ideal)) (i j : Fin 64) (l : Fin 128) :
    val_main_v6 (F := Ideal) x0 x1 (ix3 i j l)
      = (Finset.univ : Finset (Fin 128)).fold FloatOps.minimumf (FloatOps.ofBits (F := Ideal) .f32 0x7F800000#32)
          (fun k => FloatOps.absf (F := Ideal) (φ := .f32) (FloatOps.subf (F := Ideal) (φ := .f32) (x1 (ix2 i l)) (x0 (ix2 j k)))) := by
  unfold val_main_v6
  refine (hostMinOver_last _ _ reducesTo_S64x64x128x128_S64x64x128_d3 h_S_ i j l).trans ?_
  exact congrArg (fun f => Finset.fold (FloatOps.minimumf (F := Ideal) (φ := .f32)) (FloatOps.ofBits (F := Ideal) .f32 0x7F800000#32) f
    (Finset.univ : Finset (Fin 128))) (funext fun k => refDist_apply x0 x1 i j l k)

/-- THE REFERENCE'S RESULT is the table of counts of its two arguments. -/
theorem result_eq (x0 x1 : (⟨S64x128, .f32⟩ : BufTy).Contents (Elt Ideal)) :
    val_main_v10 (F := Ideal) x0 x1 = pairCounts x0 x1 := by
  funext ij
  obtain ⟨i, j, rfl⟩ : ∃ (i j : Fin 64), ij = ix2 i j := ⟨ij 0, ij 1, eq_ix2 ij⟩
  rw [val_main_v10_apply]
  show (Ideal.ofBits .f32 0x00000000#32 : EReal) + _ = _
  rw [Ideal.ofBits_zero_f32, zero_add]
  unfold pairCounts rowCount
  refine Finset.sum_congr rfl fun l _ => ?_
  have e : idx_main_v10 (ix2 i j) l = ix3 i j l :=
    funext fun a => Fin.ext (by match a with | ⟨0, _⟩ => rfl | ⟨1, _⟩ => rfl | ⟨2, _⟩ => rfl)
  rw [e, val_main_v9_apply, val_main_v8_apply, val_main_v7_apply, val_main_cst_0_apply, refMin_apply]

end Cert.ReferenceIdeal.RefValue

end
-- ==== Proof.lean ====
/-
  For two arrays `it` and `zh` of 64 rows of 128 numbers, the result's entry (i, j) counts the entries `zh i l` that lie at
  a positive distance from row `j` of `it`: the sum over `l` of the indicator `[min_k |zh i l - it j k| > 0]`, the minimum
  started from +∞ and the sum from zero.

  The kernel walks the rows of `zh` eight at a time and, at each step, the rows of `it` eight at a time, storing an 8 × 8
  tile of counts per pair of groups; the reference builds the whole [64, 64, 128, 128] table of distances at once. Read at
  the ideal values both leave the same table of counts (Proof/PairCount.lean states it; Proof/KernelBlock.lean and
  Proof/KernelValue.lean read the kernel's run, Proof/RefCount.lean the reference's): the minimum and the sum are taken
  over the same 128 coordinates in either program, in whatever order, and an indicator widened to a word and converted
  signed is the indicator converted unsigned. No law of arithmetic beyond that is used, so the inputs' finiteness is not
  needed. The idealization rewrote nothing, so there is nothing to preserve.
-/
import proofs.«128038_j54185307406552_1_alg».proof.Defs
import proofs.«128038_j54185307406552_1_alg».proof.Proof.Gen.Kernel
import proofs.«128038_j54185307406552_1_alg».proof.Proof.Gen.Kernel.Skeleton
import proofs.«128038_j54185307406552_1_alg».proof.Proof.Gen.Kernel.Launch
import proofs.«128038_j54185307406552_1_alg».proof.Proof.Gen.Kernel.Points
import proofs.«128038_j54185307406552_1_alg».proof.Proof.Gen.Kernel.Frame
import proofs.«128038_j54185307406552_1_alg».proof.Proof.Gen.KernelIdeal
import proofs.«128038_j54185307406552_1_alg».proof.Proof.Gen.KernelIdeal.Skeleton
import proofs.«128038_j54185307406552_1_alg».proof.Proof.Gen.KernelIdeal.Launch
import proofs.«128038_j54185307406552_1_alg».proof.Proof.Gen.KernelIdeal.Points
import proofs.«128038_j54185307406552_1_alg».proof.Proof.Gen.KernelIdeal.Frame
import proofs.«128038_j54185307406552_1_alg».proof.Proof.Gen.ReferenceIdeal
import proofs.«128038_j54185307406552_1_alg».proof.Proof.Gen.Pre_finite_inputs
import proofs.«128038_j54185307406552_1_alg».proof.Proof.Gen.KernelIdeal.Value
import proofs.«128038_j54185307406552_1_alg».proof.Proof.Gen.ReferenceIdeal.Run
import proofs.«128038_j54185307406552_1_alg».proof.Proof.Gen.ReferenceIdeal.Read
import proofs.«128038_j54185307406552_1_alg».proof.Proof.KernelValue
import proofs.«128038_j54185307406552_1_alg».proof.Proof.RefCount
import Idealize.ShloMosaic.Adequacy
import Idealize.ShloMosaic.Init

noncomputable section

namespace Cert.Proof

open Idealize.ShloMosaic Idealize.SL.Sem

/-- The kernel as printed runs, and its argument arrays end unchanged. -/
theorem frame_kernel : Cert.frame_Kernel := fun m ρ _ => Cert.Kernel.Gen.frame m ρ

/-- The same of the kernel read at the ideal values. -/
theorem frame_kernelIdeal : Cert.frame_KernelIdeal := fun m ρ _ => Cert.KernelIdeal.Gen.frame m ρ

/-- The reference runs, and its argument arrays end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two arguments, the kernel's result array and the reference's both end at the table of
    counts of those arguments. -/
theorem algebraic : Cert.algebraic_KernelIdeal_ReferenceIdeal := by
  intro m ρ m' ρ' _ hagree
  refine ⟨fun c => Cert.KernelIdeal.Hand.table m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
